-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x16 : S_.BroadcastsInDim S128x16 (![] : Fin 0 → Fin S128x16.rank)
  reducesTo_S128x16_S_d0_1 : S128x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S12x128 : S_.BroadcastsInDim S12x128 (![] : Fin 0 → Fin S12x128.rank)
  reducesTo_S12x128_S_d0_1 : S12x128.ReducesTo [0, 1] S_

variable [Facts]

def fn_part1 {F : FTy → Type} [FloatOps F] (main_arg5 : FVec F S3x128 .f32) (main_arg6 : FVec F S12x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S12x128 .f32 := Host.absf main_arg6
  let main_cst_8 : FVec F S_ .f32 := constant S_ .f32 0x7F800000#32
  let main_v25 : FVec F S12x128 .f32 := broadcastInDim S12x128 ![] bcast_S_S12x128 main_cst_8
  let main_v26 : IVec S12x128 1 := cmpf .olt main_v24 main_v25
  let main_c_9 : IVec S_ 1 := constantI S_ 1 1#1
  let main_v27 : IVec S_ 1 := (fun x v => Host.reduce IntOp.andi x v reducesTo_S12x128_S_d0_1 h_S_) main_v26 main_c_9
  let main_v28 : IVec S_ 1 := andi main_v23 main_v27
  main_v28

def fn {F : FTy → Type} [FloatOps F] (main_arg0 : FVec F S640000x128 .f32) (main_arg1 : FVec F S640000x16 .f32) (main_arg2 : IVec S2x640000 32) (main_arg3 : FVec F S128x16 .f32) (main_arg4 : FVec F S3x128x128 .f32) (main_arg5 : FVec F S3x128 .f32) (main_arg6 : FVec F S12x128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S640000x16 .f32 := Host.absf main_arg1
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S16x128 : Shape := ⟨2, ![16, 128]⟩
abbrev S8000x16 : Shape := ⟨2, ![8000, 16]⟩
abbrev S8000x128 : Shape := ⟨2, ![8000, 128]⟩
abbrev S1x640000 : Shape := ⟨2, ![1, 640000]⟩
abbrev S640000 : Shape := ⟨1, ![640000]⟩
abbrev S_ : Shape := ⟨0, ![]⟩
abbrev S20000x128 : Shape := ⟨2, ![20000, 128]⟩
abbrev S640000x1 : Shape := ⟨2, ![640000, 1]⟩
abbrev S20000x12 : Shape := ⟨2, ![20000, 12]⟩
abbrev S2000x128 : Shape := ⟨2, ![2000, 128]⟩
abbrev S2000x12 : Shape := ⟨2, ![2000, 12]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x12 : Shape := ⟨2, ![128, 12]⟩

abbrev nBuf : Space → Nat
  | .hbm => 16
  | .vmem => 14
  | .smem => 0
  | _ => 0

abbrev bufTy : (tb : Table) → Fin (tcTables nBuf tb) → BufTy
  | .hbm, ⟨0, _⟩ => ⟨S640000x128, .f32⟩
  | .hbm, ⟨1, _⟩ => ⟨S640000x16, .f32⟩
  | .hbm, ⟨2, _⟩ => ⟨S2x640000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S16x128, .f32⟩
  | .hbm, ⟨8, _⟩ => ⟨S640000x128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S20000x128, .f32⟩
  | .hbm, ⟨13, _⟩ => ⟨S640000x1, .i32⟩
  | .hbm, ⟨14, _⟩ => ⟨S20000x128, .f32⟩
  | .hbm, ⟨15, _⟩ => ⟨S20000x12, .f32⟩
  | .local _ .vmem, ⟨0, _⟩ => ⟨S8000x16, .f32⟩
  | .local _ .vmem, ⟨1, _⟩ => ⟨S8000x16, .f32⟩
  | .local _ .vmem, ⟨2, _⟩ => ⟨S8000x128, .f32⟩
  | .local _ .vmem, ⟨3, _⟩ => ⟨S8000x128, .f32⟩
  | .local _ .vmem, ⟨4, _⟩ => ⟨S16x128, .f32⟩
  | .local _ .vmem, ⟨5, _⟩ => ⟨S8000x128, .f32⟩
  | .local _ .vmem, ⟨6, _⟩ => ⟨S8000x128, .f32⟩
  | .local _ .vmem, ⟨7, _⟩ => ⟨S2000x128, .f32⟩
  | .local _ .vmem, ⟨8, _⟩ => ⟨S2000x128, .f32⟩
  | .local _ .vmem, ⟨9, _⟩ => ⟨S3x128x128, .f32⟩
  | .local _ .vmem, ⟨10, _⟩ => ⟨S3x128, .f32⟩
  | .local _ .vmem, ⟨11, _⟩ => ⟨S12x128, .f32⟩
  | .local _ .vmem, ⟨12, _⟩ => ⟨S2000x12, .f32⟩
  | .local _ .vmem, ⟨13, _⟩ => ⟨S2000x12, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x12 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x16_S16x128_1_0 : S128x16.Transposes [1, 0] S16x128
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S8000x128_S8000x128_0_0 : ∀ a, (![0, 0] : Fin 2 → Nat) a + S8000x128.size a ≤ S8000x128.size a
  h_S8000x128 : 0 < S8000x128.numel
  slices_S2x640000_S1x640000_1_0 : S2x640000.Slices ![1, 0] S1x640000
  shapeCasts_S1x640000_S640000 : S1x640000.ShapeCasts S640000
  bcast_S_S20000x128 : S_.BroadcastsInDim S20000x128 (![] : Fin 0 → Fin S20000x128.rank)
  bcast_S640000_S640000x1_0 : S640000.BroadcastsInDim S640000x1 (![0] : Fin 1 → Fin S640000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  transposes_S128x128_p1_0_S128x128 : S128x128.Transposes [1, 0] S128x128
  shapeCasts_S128_S1x128 : S128.ShapeCasts S1x128
  broadcasts_S1x128_S2000x128 : S1x128.Broadcasts S2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S12x128_S12x128_0_0 : ∀ a, (![0, 0] : Fin 2 → Nat) a + S12x128.size a ≤ S12x128.size a
  h_S12x128 : 0 < S12x128.numel
  transposes_S12x128_p1_0_S128x12 : S12x128.Transposes [1, 0] S128x12
  inb_S2000x12_S2000x12_0_0 : ∀ a, (![0, 0] : Fin 2 → Nat) a + S2000x12.size a ≤ S2000x12.size a
  h_S2000x12 : 0 < S2000x12.numel
  dot_S8000x16_S16x128_S8000x128_1_0_0_1_n_n_wf : DotDims.WF S8000x16 S16x128 S8000x128 [1] [0] [0] [1] [] []
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  dot_S2000x128_S128x12_S2000x12_1_0_0_1_n_n_wf : DotDims.WF S2000x128 S128x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S640000x16.size a
  hwx0_0 : ∀ i : grid0.Coords, EltTy.bits .f32 = 32 ∨ (Rect.block (s := S640000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S640000x128.size a
  hwx0_3 : ∀ i : grid0.Coords, EltTy.bits .f32 = 32 ∨ (Rect.block (s := S640000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x128.size a ≤ S3x128x128.size a
  hwx1_1 : ∀ i : grid1.Coords, EltTy.bits .f32 = 32 ∨ (Rect.block (s := S3x128x128) S3x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12x128.size a ≤ S12x128.size a
  hwx1_3 : ∀ i : grid1.Coords, EltTy.bits .f32 = 32 ∨ (Rect.block (s := S12x128) S12x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x12.size a ≤ S20000x12.size a
  hwx1_4 : ∀ i : grid1.Coords, EltTy.bits .f32 = 32 ∨ (Rect.block (s := S20000x12) S2000x12.size (cc1_transform_4 i) (hinb1_4 i)).WholeWords (EltTy.packing .f32)

variable [Facts₀]

def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x12_S2000x12_1_0_0_1_n_n : DotDims S2000x128 S128x12 S2000x12 where
  lhsContracting := [1]
  rhsContracting := [0]
  lhsNonContracting := [0]
  rhsNonContracting := [1]
  lhsBatch := []
  rhsBatch := []
  wf := dot_S2000x128_S128x12_S2000x12_1_0_0_1_n_n_wf

abbrev win0_0 : Pipeline.Window sig grid0 :=
  Pipeline.Window.ofSpec (Memref.whole main_arg1) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S3x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S12x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2000x12.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S640000x128 : Shape := ⟨2, ![640000, 128]⟩
abbrev S640000x16 : Shape := ⟨2, ![640000, 16]⟩
abbrev S2x640000 : Shape := ⟨2, ![2, 640000]⟩
abbrev S128x16 : Shape := ⟨2, ![128, 16]⟩
abbrev S3x128x128 : Shape := ⟨3, ![3, 128, 128]⟩
abbrev S3x128 : Shape := ⟨2, ![3, 128]⟩
abbrev S12x128 : Shape := ⟨2, ![12, 128]⟩
abbrev S1x640000 : Shape := ⟨2, ![1, 640000]⟩
abbrev S640000 : Shape := ⟨1, ![640000]⟩
abbrev S_ : Shape := ⟨0, ![]⟩
abbrev S20000x128 : Shape := ⟨2, ![20000, 128]⟩
abbrev S640000x1 : Shape := ⟨2, ![640000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S20000x12 : Shape := ⟨2, ![20000, 12]⟩

abbrev nBuf : Space → Nat
  | .hbm => 67
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S640000x16, .f32⟩
  | .hbm, ⟨2, _⟩ => ⟨S2x640000, .i32⟩
  | .hbm, ⟨3, _⟩ => ⟨S128x16, .f32⟩
  | .hbm, ⟨4, _⟩ => ⟨S3x128x128, .f32⟩
  | .hbm, ⟨5, _⟩ => ⟨S3x128, .f32⟩
  | .hbm, ⟨6, _⟩ => ⟨S12x128, .f32⟩
  | .hbm, ⟨7, _⟩ => ⟨S640000x128, .f32⟩
  | .hbm, ⟨8, _⟩ => ⟨S640000x128, .f32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S20000x128, .f32⟩
  | .hbm, ⟨13, _⟩ => ⟨S640000x1, .i32⟩
  | .hbm, ⟨14, _⟩ => ⟨S20000x128, .f32⟩
  | .hbm, ⟨15, _⟩ => ⟨S1x128x128, .f32⟩
  | .hbm, ⟨16, _⟩ => ⟨S128x128, .f32⟩
  | .hbm, ⟨17, _⟩ => ⟨S20000x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S20000x128, .f32⟩
  | .hbm, ⟨22, _⟩ => ⟨S20000x128, .f32⟩
  | .hbm, ⟨23, _⟩ => ⟨S20000x128, .f32⟩
  | .hbm, ⟨24, _⟩ => ⟨S20000x128, .f32⟩
  | .hbm, ⟨25, _⟩ => ⟨S_, .f32⟩
  | .hbm, ⟨26, _⟩ => ⟨S20000x128, .f32⟩
  | .hbm, ⟨27, _⟩ => ⟨S20000x128, .f32⟩
  | .hbm, ⟨28, _⟩ => ⟨S_, .f32⟩
  | .hbm, ⟨29, _⟩ => ⟨S20000x128, .f32⟩
  | .hbm, ⟨30, _⟩ => ⟨S20000x128, .f32⟩
  | .hbm, ⟨31, _⟩ => ⟨S20000x128, .f32⟩
  | .hbm, ⟨32, _⟩ => ⟨S1x128x128, .f32⟩
  | .hbm, ⟨33, _⟩ => ⟨S128x128, .f32⟩
  | .hbm, ⟨34, _⟩ => ⟨S20000x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S20000x128, .f32⟩
  | .hbm, ⟨39, _⟩ => ⟨S20000x128, .f32⟩
  | .hbm, ⟨40, _⟩ => ⟨S20000x128, .f32⟩
  | .hbm, ⟨41, _⟩ => ⟨S20000x128, .f32⟩
  | .hbm, ⟨42, _⟩ => ⟨S_, .f32⟩
  | .hbm, ⟨43, _⟩ => ⟨S20000x128, .f32⟩
  | .hbm, ⟨44, _⟩ => ⟨S20000x128, .f32⟩
  | .hbm, ⟨45, _⟩ => ⟨S_, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S1x128x128, .f32⟩
  | .hbm, ⟨50, _⟩ => ⟨S128x128, .f32⟩
  | .hbm, ⟨51, _⟩ => ⟨S20000x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S20000x128, .f32⟩
  | .hbm, ⟨56, _⟩ => ⟨S20000x128, .f32⟩
  | .hbm, ⟨57, _⟩ => ⟨S20000x128, .f32⟩
  | .hbm, ⟨58, _⟩ => ⟨S20000x128, .f32⟩
  | .hbm, ⟨59, _⟩ => ⟨S_, .f32⟩
  | .hbm, ⟨60, _⟩ => ⟨S20000x128, .f32⟩
  | .hbm, ⟨61, _⟩ => ⟨S20000x128, .f32⟩
  | .hbm, ⟨62, _⟩ => ⟨S_, .f32⟩
  | .hbm, ⟨63, _⟩ => ⟨S20000x128, .f32⟩
  | .hbm, ⟨64, _⟩ => ⟨S20000x128, .f32⟩
  | .hbm, ⟨65, _⟩ => ⟨S20000x128, .f32⟩
  | .hbm, ⟨66, _⟩ => ⟨S20000x12, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v33 : Ref sig .tc := ⟨.hbm, 65, rfl⟩
abbrev main_v34 : Ref sig .tc := ⟨.hbm, 66, rfl⟩

abbrev nD : Nat := 1
abbrev τ : Topo := Topo.v7x

variable {F : FTy → Type} [FloatOps F]

class Facts₀ : Prop where
  slices_S2x640000_S1x640000_1_0 : S2x640000.Slices ![1, 0] S1x640000
  shapeCasts_S1x640000_S640000 : S1x640000.ShapeCasts S640000
  bcast_S_S20000x128 : S_.BroadcastsInDim S20000x128 (![] : Fin 0 → Fin S20000x128.rank)
  bcast_S640000_S640000x1_0 : S640000.BroadcastsInDim S640000x1 (![0] : Fin 1 → Fin S640000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S640000x16_S128x16_S640000x128_1_1_0_0_n_n_wf : DotDims.WF S640000x16 S128x16 S640000x128 [1] [1] [0] [0] [] []
  scatter_S20000x128_S640000x1_S640000x128_1_0_0_1_wf : ScatterDims.WF S20000x128 S640000x1 S640000x128 [1] [0] [0] 1
  dot_S20000x128_S128x128_S20000x128_1_1_0_0_n_n_wf : DotDims.WF S20000x128 S128x128 S20000x128 [1] [1] [0] [0] [] []
  dot_S20000x128_S12x128_S20000x12_1_1_0_0_n_n_wf : DotDims.WF S20000x128 S12x128 S20000x12 [1] [1] [0] [0] [] []

variable [Facts₀]

def dot_S640000x16_S128x16_S640000x128_1_1_0_0_n_n : DotDims S640000x16 S128x16 S640000x128 where
  lhsContracting := [1]
  rhsContracting := [1]
  lhsNonContracting := [0]
  rhsNonContracting := [0]
  lhsBatch := []
  rhsBatch := []
  wf := dot_S640000x16_S128x16_S640000x128_1_1_0_0_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_1_0_0_n_n : DotDims S20000x128 S128x128 S20000x128 where
  lhsContracting := [1]
  rhsContracting := [1]
  lhsNonContracting := [0]
  rhsNonContracting := [0]
  lhsBatch := []
  rhsBatch := []
  wf := dot_S20000x128_S128x128_S20000x128_1_1_0_0_n_n_wf
def dot_S20000x128_S12x128_S20000x12_1_1_0_0_n_n : DotDims S20000x128 S12x128 S20000x12 where
  lhsContracting := [1]
  rhsContracting := [1]
  lhsNonContracting := [0]
  rhsNonContracting := [0]
  lhsBatch := []
  rhsBatch := []
  wf := dot_S20000x128_S12x128_S20000x12_1_1_0_0_n_n_wf

class Facts : Prop extends Facts₀ where

variable [Facts]
-- ==== Proof.HostStretch.lean ====
/-
  What the two host stretches leave in the buffers the kernel's regions read.

  Before the first region the host transposes the [128, 16] weight; the region's windows then find the radial-basis
  array and the incoming features as launched, and the weight transposed. Between the regions the host takes row 1
  of the edge index, reshapes and broadcasts it, and scatter-adds the first region's output (the messages) onto a
  zero array of atoms: that chain is carried as ONE function, `atomsOf`, of the index array and the messages — it is
  never opened, because the reference applies the same chain. The second region's windows find the atoms at that
  value and the dense weights, biases and projection as launched (no host operation and no region writes them).
-/
import proofs.«112896_j31791347925878_1_alg».proof.Proof.Gen.KernelIdeal.Frame
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- Row 1 of the edge index names each edge's receiving atom; the messages are summed onto a zero array of atoms at
    those rows. -/
def atomsOf (idx : (⟨S2x640000, .i32⟩ : BufTy).Contents (Elt F)) (msg : (⟨S640000x128, .f32⟩ : BufTy).Contents (Elt F)) :
    (⟨S20000x128, .f32⟩ : BufTy).Contents (Elt F) :=
  Host.scatterAdd scatter_S20000x128_S640000x1_S640000x128_1_0_0_1
    (broadcastInDim S20000x128 ![] bcast_S_S20000x128 (constant (F := F) S_ .f32 0x00000000#32))
    (broadcastInDim S640000x1 ![0] bcast_S640000_S640000x1_0
      (shapeCast _ (extractStridedSlice S1x640000 ![1, 0] idx slices_S2x640000_S1x640000_1_0) shapeCasts_S1x640000_S640000))
    msg

variable (m : (ℓ : Loc nD τ sig) → Buf (Elt F) ℓ) (ρ : Dev nD → PrngReg)

/-! ## The first region's entry -/

/-- The radial-basis array is as launched: the transpose writes another buffer. -/
theorem entry0_rbf (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The incoming features are as launched. -/
theorem entry0_mji (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The weight window's array is the launched weight transposed. -/
theorem entry0_wT (c : Dev nD) :
    V1 m ρ c main_v0 = transpose S16x128 [1, 0] (m ((c : Thread nD τ).loc main_arg3)) transposes_S128x16_S16x128_1_0 := by
  show StableHlo.after hostOps0 (W0 m ρ c) (Proc.devRef .tc main_v0) = _
  after_results

/-! ## The second region's entry -/

/-- A buffer that neither host stretch writes and that is no array of the first region is as launched. -/
theorem entry1_D (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem entry1_b (c : Dev nD) : V3 m ρ c main_arg5 = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem entry1_P (c : Dev nD) : V3 m ρ c main_arg6 = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- The edge index at the first region's exit is as launched. -/
theorem exit0_idx (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- The messages at the first region's exit are what its eighty write-backs leave in its output array. -/
theorem exit0_msg (c : Dev nD) : W2 m ρ c (Proc.devRef .tc main_v1) = (dat0 (V1 m ρ) c).arrAt 3 cfg0.N :=
  W2_arr m ρ c 3

/-- The atoms the second region reads: the shared chain of the launched edge index and the first region's messages. -/
theorem entry1_atoms (c : Dev nD) :
    V3 m ρ c main_v6 = atomsOf (m ((c : Thread nD τ).loc main_arg2)) ((dat0 (V1 m ρ) c).arrAt 3 cfg0.N) := by
  show StableHlo.after hostOps1 (W2 m ρ c) (Proc.devRef .tc main_v6) = _
  after_results
  rw [exit0_idx m ρ c, exit0_msg m ρ c]
  rfl

end Cert.KernelIdeal.Stretch

end
-- ==== Proof.Spec.lean ====
/-
  What both programs compute, on the extended reals.

  An edge e carries a radial-basis row rbf[e, ·] (16 entries) and an incoming feature row m[e, ·] (128 entries).
  Its message is  msg[e, f] = (∑ r < 16, rbf[e, r] · W[f, r]) · m[e, f].  The messages are summed onto their receiving
  atoms (a scatter-add the two programs share, carried here as an opaque function), and each atom's row x of 128
  features then runs through three dense layers with the SiLU activation,
      x ↦ silu (∑ f, x[f] · D[l, g, f] + b[l, g]),      silu y = y · 1 / (1 + e^(-y)),
  and a last bias-free projection  out[n, o] = ∑ f, x₃[n, f] · P[o, f].

  The dense stack acts row by row, so it is stated on ONE row (a function Fin 128 → EReal) and lifted to the
  array; the same row function describes a block of 2000 atoms and the whole array of 20000.
-/
import Idealize.ShloMosaic.Lib.ValueIdx
import Idealize.ShloMosaic.PureOps.Ideal

noncomputable section

namespace Cert.Spec

open Idealize.ShloMosaic Idealize.ShloMosaic.ValueIdx

/-- Arrays of extended reals over a literal shape of rank 2 or 3. -/
abbrev Arr2 (a b : ℕ) : Type := (⟨2, ![a, b]⟩ : Shape).Idx → EReal
abbrev Arr3 (a b c : ℕ) : Type := (⟨3, ![a, b, c]⟩ : Shape).Idx → EReal

/-- The message entry (e, f): the radial-basis row of edge e against row f of the weight, times the incoming feature. -/
def messageAt (rbf : Arr2 640000 16) (w : Arr2 128 16) (mji : Arr2 640000 128) (e : Fin 640000) (f : Fin 128) : EReal :=
  (∑ r : Fin 16, rbf (ix2 e r) * w (ix2 f r)) * mji (ix2 e f)

/-- The message array. -/
def message (rbf : Arr2 640000 16) (w : Arr2 128 16) (mji : Arr2 640000 128) : Arr2 640000 128 :=
  fun i => messageAt rbf w mji ⟨(i 0).val, (i 0).isLt⟩ ⟨(i 1).val, (i 1).isLt⟩

/-- The same entry read from the weight stored transposed, [16, 128]. -/
def messageTAt (rbf : Arr2 640000 16) (wT : Arr2 16 128) (mji : Arr2 640000 128) (e : Fin 640000) (f : Fin 128) : EReal :=
  (∑ r : Fin 16, rbf (ix2 e r) * wT (ix2 r f)) * mji (ix2 e f)

/-- The message array from the transposed weight. -/
def messageT (rbf : Arr2 640000 16) (wT : Arr2 16 128) (mji : Arr2 640000 128) : Arr2 640000 128 :=
  fun i => messageTAt rbf wT mji ⟨(i 0).val, (i 0).isLt⟩ ⟨(i 1).val, (i 1).isLt⟩

/-- Reading the weight through its transpose changes nothing: wT[r, f] = w[f, r]. -/
theorem messageT_eq (rbf : Arr2 640000 16) (w : Arr2 128 16) (wT : Arr2 16 128) (mji : Arr2 640000 128)
    (h : ∀ (r : Fin 16) (f : Fin 128), wT (ix2 r f) = w (ix2 f r)) : messageT rbf wT mji = message rbf w mji := by
  funext i
  show messageTAt rbf wT mji _ _ = messageAt rbf w mji _ _
  unfold messageTAt messageAt
  simp only [h]

/-- SiLU on the extended reals. -/
def silu (y : EReal) : EReal := y * Ideal.logistic y

/-- Dense layer l with SiLU, on one row of 128 features. -/
def dense (D : Arr3 3 128 128) (b : Arr2 3 128) (l : Fin 3) (x : Fin 128 → EReal) : Fin 128 → EReal :=
  fun g => silu ((∑ f : Fin 128, x f * D (ix3 l g f)) + b (ix2 l g))

/-- The three layers, then the projection onto 12 outputs, on one row. -/
def rowOut (D : Arr3 3 128 128) (b : Arr2 3 128) (P : Arr2 12 128) (x : Fin 128 → EReal) : Fin 12 → EReal :=
  fun o => ∑ f : Fin 128, dense D b 2 (dense D b 1 (dense D b 0 x)) f * P (ix2 o f)

/-- The dense stack over all 20000 atoms. -/
def mlp (D : Arr3 3 128 128) (b : Arr2 3 128) (P : Arr2 12 128) (atom : Arr2 20000 128) : Arr2 20000 12 :=
  fun i => rowOut D b P (fun f => atom (ix2 ⟨(i 0).val, (i 0).isLt⟩ f)) ⟨(i 1).val, (i 1).isLt⟩

theorem message_ix2 (rbf : Arr2 640000 16) (w : Arr2 128 16) (mji : Arr2 640000 128) (e : Fin 640000) (f : Fin 128) :
    message rbf w mji (ix2 e f) = messageAt rbf w mji e f := rfl

theorem messageT_ix2 (rbf : Arr2 640000 16) (wT : Arr2 16 128) (mji : Arr2 640000 128) (e : Fin 640000) (f : Fin 128) :
    messageT rbf wT mji (ix2 e f) = messageTAt rbf wT mji e f := rfl

theorem mlp_ix2 (D : Arr3 3 128 128) (b : Arr2 3 128) (P : Arr2 12 128) (atom : Arr2 20000 128) (n : Fin 20000) (o : Fin 12) :
    mlp D b P atom (ix2 n o) = rowOut D b P (fun f => atom (ix2 n f)) o := rfl

end Cert.Spec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0Block.lean ====
import proofs.«112896_j31791347925878_1_alg».proof.Proof.Gen.KernelIdeal.Frame
import proofs.«112896_j31791347925878_1_alg».proof.Proof.Spec
import proofs.«112896_j31791347925878_1_alg».proof.Proof.LibPlainDot
import Idealize.ShloMosaic.Lib.Pipeline.Value
import Idealize.ShloMosaic.Lib.ValueLayout
import Idealize.ShloMosaic.PureOps.Ideal.Laws
set_option maxRecDepth 16384

noncomputable section

open Idealize.ShloMosaic Idealize.ShloMosaic.TcCoe Idealize.SL.Sem Idealize.ShloMosaic.ValueIdx

namespace Cert.KernelIdeal.Region0
open Cert.KernelIdeal Cert.KernelIdeal.Gen

/-- What the first region's body leaves in its output block, at entry (p, q): row p of the block of radial-basis rows
    against column q of the transposed weight (a product into a zero accumulator: at the exact values, the sum over the
    16 basis functions), times the incoming feature at the same entry. -/
theorem block_value (x0 : Vec Ideal S8000x16 .f32) (x1 : Vec Ideal S8000x128 .f32) (x2 : Vec Ideal S16x128 .f32) (p : Fin 8000) (q : Fin 128) :
    out0_3 (F := Ideal) x0 x1 x2 (ix2 p q) = (∑ r : Fin 16, x0 (ix2 p r) * x2 (ix2 r q)) * x1 (ix2 p q) := by
  have hz : (![0, 0] : Fin 2 → Nat) = fun _ => 0 := funext fun a => by fin_cases a <;> rfl
  unfold out0_3
  rw [View.canon_unit_zero hz]
  rw [View.ld_unit_zero (S := S8000x16) hz, View.ld_unit_zero (S := S16x128) hz, View.ld_unit_zero (S := S8000x128) hz]
  unfold k0_pay1
  rw [mulf_apply, shapeCast_self]
  rw [Cert.PlainDot.matmul_zero_apply ⟨rfl, rfl, rfl, rfl, rfl, rfl⟩ rfl rfl]

end Cert.KernelIdeal.Region0

end
-- ==== Proof.Region0Array.lean ====
import proofs.«112896_j31791347925878_1_alg».proof.Proof.Gen.KernelIdeal.Frame
import proofs.«112896_j31791347925878_1_alg».proof.Proof.Spec
import proofs.«112896_j31791347925878_1_alg».proof.Proof.Region0Block
import Idealize.ShloMosaic.Lib.Pipeline.Value
set_option maxRecDepth 16384

noncomputable section

open Idealize.ShloMosaic Idealize.ShloMosaic.TcCoe Idealize.SL.Sem Idealize.ShloMosaic.ValueIdx

namespace Cert.KernelIdeal.Region0
open Cert.KernelIdeal Cert.KernelIdeal.Gen

/-- The four index maps, decided over the 80 grid points: at point t the row-blocked windows (the radial-basis rows,
    the incoming features, the output) sit at block row t and block column 0, and the transposed weight is whole
    (block (0, 0)) at every point. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- One entry of an output block, from the block's inputs read as rows of the arrays: when row p of the radial-basis
    block is row e of the array, entry (p, q) of the feature block is entry (e, q) of the array, and column q of the
    weight block is column q of the transposed weight, the block's entry (p, q) is the message entry (e, q). -/
theorem point_value (rbf : Cert.Spec.Arr2 640000 16) (wT : Cert.Spec.Arr2 16 128) (mji : Cert.Spec.Arr2 640000 128)
    (x0 : Vec Ideal S8000x16 .f32) (x1 : Vec Ideal S8000x128 .f32) (x2 : Vec Ideal S16x128 .f32)
    (p : Fin 8000) (q : Fin 128) (e : Fin 640000)
    (h0 : ∀ r : Fin 16, x0 (ix2 p r) = rbf (ix2 e r))
    (h1 : x1 (ix2 p q) = mji (ix2 e q))
    (h2 : ∀ r : Fin 16, x2 (ix2 r q) = wT (ix2 r q)) :
    out0_3 (F := Ideal) x0 x1 x2 (ix2 p q) = Cert.Spec.messageT rbf wT mji (ix2 e q) := by
  rw [block_value, Cert.Spec.messageT_ix2]
  unfold Cert.Spec.messageTAt
  rw [h1]
  exact congrArg (· * mji (ix2 e q)) (Finset.sum_congr rfl fun r _ => by rw [h0 r, h2 r])

/-- WHAT POINT t WRITES BACK is block t of the message array of the arrays as the region finds them: rows
    8000 t … 8000 t + 7999, all 128 columns. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.messageT (V c main_arg1) (V c main_v0) (V c main_arg0)) := by
  show (cfg0.win 3).cut (grid0.coords t) ((dat0 V c).after 3 t) = _
  rw [after0_3]
  obtain ⟨e0, e1, e2, e3, e4, e5, e6, e7⟩ := idx_facts t
  have ht : t.val < 80 := t.isLt
  refine funext fun (j : S8000x128.Idx) => ?_
  have hp : (j 0).val < 8000 := (j 0).isLt
  have hq : (j 1).val < 128 := (j 1).isLt
  -- the entry's place in the block, and the row of the array it is written to
  have hj : j = ix2 (⟨(j 0).val, hp⟩ : Fin 8000) (⟨(j 1).val, hq⟩ : Fin 128) := eq_ix2 j
  have hemb : ((cfg0.win 3).blk t).view.emb j
      = ix2 (⟨t.val * 8000 + (j 0).val, by omega⟩ : Fin 640000) (⟨(j 1).val, hq⟩ : Fin 128) := by
    funext a; apply Fin.ext
    match a with
    | ⟨0, _⟩ => show win0_3.index t (0 : Fin 2) * 8000 + 1 * (j 0).val = t.val * 8000 + (j 0).val; omega
    | ⟨1, _⟩ => show win0_3.index t (1 : Fin 2) * 128 + 1 * (j 1).val = (j 1).val; omega
  show out0_3 (iblk0 V c 0 t) (iblk0 V c 1 t) (iblk0 V c 2 t) j
    = Cert.Spec.messageT (V c main_arg1) (V c main_v0) (V c main_arg0) (((cfg0.win 3).blk t).view.emb j)
  refine (congrArg (out0_3 (iblk0 V c 0 t) (iblk0 V c 1 t) (iblk0 V c 2 t)) hj).trans ?_
  refine (point_value (V c main_arg1) (V c main_v0) (V c main_arg0) _ _ _ _ _
    (⟨t.val * 8000 + (j 0).val, by omega⟩ : Fin 640000) ?_ ?_ ?_).trans (congrArg _ hemb.symm)
  · -- row (j 0) of the radial-basis block is row 8000 t + (j 0) of the array
    intro r
    show V c main_arg1 (((cfg0.win 0).blk t).view.emb (ix2 (⟨(j 0).val, hp⟩ : Fin 8000) r)) = _
    refine congrArg (V c main_arg1) (funext fun a => Fin.ext ?_)
    match a with
    | ⟨0, _⟩ => show win0_0.index t (0 : Fin 2) * 8000 + 1 * (j 0).val = t.val * 8000 + (j 0).val; omega
    | ⟨1, _⟩ => show win0_0.index t (1 : Fin 2) * 16 + 1 * r.val = r.val; omega
  · -- the feature block sits where the output block does
    show V c main_arg0 (((cfg0.win 1).blk t).view.emb (ix2 (⟨(j 0).val, hp⟩ : Fin 8000) (⟨(j 1).val, hq⟩ : Fin 128))) = _
    refine congrArg (V c main_arg0) (funext fun a => Fin.ext ?_)
    match a with
    | ⟨0, _⟩ => show win0_1.index t (0 : Fin 2) * 8000 + 1 * (j 0).val = t.val * 8000 + (j 0).val; omega
    | ⟨1, _⟩ => show win0_1.index t (1 : Fin 2) * 128 + 1 * (j 1).val = (j 1).val; omega
  · -- the weight block is the whole transposed weight
    intro r
    show V c main_v0 (((cfg0.win 2).blk t).view.emb (ix2 r (⟨(j 1).val, hq⟩ : Fin 128))) = _
    refine congrArg (V c main_v0) (funext fun a => Fin.ext ?_)
    match a with
    | ⟨0, _⟩ => show win0_2.index t (0 : Fin 2) * 16 + 1 * r.val = r.val; omega
    | ⟨1, _⟩ => show win0_2.index t (1 : Fin 2) * 128 + 1 * (j 1).val = (j 1).val; omega

/-- An index of the output array is in point t's block iff each coordinate is in the block's range on its axis. -/
theorem mem_blk (t : Fin cfg0.N) (i : S640000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v1).slice (win0_3.rect t)).set ↔ _
  rw [View.set_slice_whole, Rect.mem_set_unit]
  exact Iff.rfl

/-- EVERY index of the output array is in some point's block: row r is written by point r / 8000, and the 80 blocks
    of 8000 rows fill the 640000 rows; every point writes back. -/
theorem cover (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : (i 0).val / 8000 < grid0.N := by rw [N_0]; omega
  obtain ⟨-, -, -, -, -, -, e6, e7⟩ := idx_facts ⟨(i 0).val / 8000, hN⟩
  have q0 : win0_3.index ⟨(i 0).val / 8000, hN⟩ (0 : Fin 2) = (i 0).val / 8000 := e6
  refine ⟨⟨(i 0).val / 8000, hN⟩, flush0_3 _, ?_⟩
  rw [mem_blk]
  intro a
  match a with
  | ⟨0, _⟩ => show win0_3.index ⟨(i 0).val / 8000, hN⟩ (0 : Fin 2) * 8000 ≤ (i 0).val ∧ (i 0).val < win0_3.index ⟨(i 0).val / 8000, hN⟩ (0 : Fin 2) * 8000 + 8000; omega
  | ⟨1, _⟩ => show win0_3.index ⟨(i 0).val / 8000, hN⟩ (1 : Fin 2) * 128 ≤ (i 1).val ∧ (i 1).val < win0_3.index ⟨(i 0).val / 8000, hN⟩ (1 : Fin 2) * 128 + 128; omega

/-- THE OUTPUT ARRAY after the region's run is the message array of the arrays as the region finds them. -/
theorem array_value (V : (c : Dev nD) → (b : Ref sig .tc) → Buf (Elt Ideal) ((c : Thread nD τ).loc b)) (c : Dev nD) :
    (dat0 (F := Ideal) V c).arrAt 3 cfg0.N = Cert.Spec.messageT (V c main_arg1) (V c main_v0) (V c main_arg0) :=
  (dat0 (F := Ideal) V c).arrAt_eq_of_cover 3 _ (fun t _ => flushed_eq V c t) cover

end Cert.KernelIdeal.Region0

end
-- ==== Proof.Region1Block.lean ====
import proofs.«112896_j31791347925878_1_alg».proof.Proof.Gen.KernelIdeal.Frame
import proofs.«112896_j31791347925878_1_alg».proof.Proof.Spec
import proofs.«112896_j31791347925878_1_alg».proof.Proof.LibPlainDot
import Idealize.ShloMosaic.Lib.Pipeline.Value
import Idealize.ShloMosaic.Lib.ValueLayout
import Idealize.ShloMosaic.PureOps.Ideal.Laws
set_option maxRecDepth 16384

noncomputable section

open Idealize.ShloMosaic Idealize.ShloMosaic.TcCoe Idealize.SL.Sem Idealize.ShloMosaic.ValueIdx

namespace Cert.KernelIdeal.Region1
open Cert.KernelIdeal Cert.KernelIdeal.Gen

/-- Both contracted products of this region are plain [a,k]·[k,b] products. -/
theorem plain_hidden : Cert.PlainDot.Plain dot_S2000x128_S128x128_S2000x128_1_0_0_1_n_n := ⟨rfl, rfl, rfl, rfl, rfl, rfl⟩

theorem plain_proj : Cert.PlainDot.Plain dot_S2000x128_S128x12_S2000x12_1_0_0_1_n_n := ⟨rfl, rfl, rfl, rfl, rfl, rfl⟩

/-- The slab of the [3,128,128] weight at offset l on the leading axis: its entry (0, g, f) is the weight's entry (l, g, f). -/
theorem slab_apply (D : Vec Ideal S3x128x128 .f32) (off : Fin 3 → Nat) (inb : ∀ a, off a + S1x128x128.size a ≤ S3x128x128.size a)
    (l : Fin 3) (h0 : off 0 = l.val) (h1 : off 1 = 0) (h2 : off 2 = 0) (g f : Fin 128) :
    (View.ld D (Rect.unit (s := S3x128x128) off S1x128x128.size inb) : Vec Ideal S1x128x128 .f32) (ix3 (0 : Fin 1) g f) = D (ix3 l g f) := by
  show D _ = D _
  refine congrArg D (funext fun a => Fin.ext ?_)
  match a with
  | ⟨0, _⟩ => show off 0 + 1 * 0 = l.val; rw [h0]; rfl
  | ⟨1, _⟩ => show off 1 + 1 * g.val = g.val; rw [h1, Nat.one_mul, Nat.zero_add]
  | ⟨2, _⟩ => show off 2 + 1 * f.val = f.val; rw [h2, Nat.one_mul, Nat.zero_add]

/-- The row of the [3,128] bias at offset l on the leading axis: its entry (0, g) is the bias's entry (l, g). -/
theorem biasrow_apply (b : Vec Ideal S3x128 .f32) (off : Fin 2 → Nat) (inb : ∀ a, off a + S1x128.size a ≤ S3x128.size a)
    (l : Fin 3) (h0 : off 0 = l.val) (h1 : off 1 = 0) (g : Fin 128) :
    (View.ld b (Rect.unit (s := S3x128) off S1x128.size inb) : Vec Ideal S1x128 .f32) (ix2 (0 : Fin 1) g) = b (ix2 l g) := by
  show b _ = b _
  refine congrArg b (funext fun a => Fin.ext ?_)
  match a with
  | ⟨0, _⟩ => show off 0 + 1 * 0 = l.val; rw [h0]; rfl
  | ⟨1, _⟩ => show off 1 + 1 * g.val = g.val; rw [h1, Nat.one_mul, Nat.zero_add]

/-- One dense layer as the kernel spells it: the weight slab cast to a matrix and transposed, the product into a zero
    accumulator, the bias row cast down and up and broadcast over the rows, the sum, and the sum times its logistic. -/
def layer (x : FVec Ideal S2000x128 .f32) (Dl : Vec Ideal S1x128x128 .f32) (bl : Vec Ideal S1x128 .f32) : FVec Ideal S2000x128 .f32 :=
  have v3 : FVec Ideal S128x128 .f32 := shapeCast S128x128 Dl shapeCasts_S1x128x128_S128x128
  have v5 : FVec Ideal S128 .f32 := shapeCast S128 bl shapeCasts_S1x128_S128
  have v6 : FVec Ideal S128x128 .f32 := transpose S128x128 [1, 0] v3 transposes_S128x128_p1_0_S128x128
  have cst : FVec Ideal S2000x128 .f32 := constant S2000x128 .f32 0x00000000#32
  have v7 : FVec Ideal S2000x128 .f32 := matmul dot_S2000x128_S128x128_S2000x128_1_0_0_1_n_n none x v6 cst
  have v8 : FVec Ideal S1x128 .f32 := shapeCast S1x128 v5 shapeCasts_S128_S1x128
  have v9 : FVec Ideal S2000x128 .f32 := broadcastTo S2000x128 v8 broadcasts_S1x128_S2000x128
  have v10 : FVec Ideal S2000x128 .f32 := addf v7 v9
  have v11 : FVec Ideal S2000x128 .f32 := logistic v10
  mulf v10 v11

/-- The three layers of the kernel's payload are that one layer, three times. -/
theorem pay2_eq_layers (v0 : Vec Ideal S2000x128 .f32) (v2 : Vec Ideal S1x128x128 .f32) (v4 : Vec Ideal S1x128 .f32)
    (v13 : Vec Ideal S1x128x128 .f32) (v15 : Vec Ideal S1x128 .f32) (v24 : Vec Ideal S1x128x128 .f32) (v26 : Vec Ideal S1x128 .f32) :
    k1_pay2 (F := Ideal) v0 v2 v4 v13 v15 v24 v26
      = layer (layer (layer (shapeCast S2000x128 v0 shapeCasts_S2000x128_S2000x128) v2 v4) v13 v15) v24 v26 := rfl

/-- The pre-activation of a layer at entry (p, g): the row p of the input against row g of the weight slab, plus the bias. -/
theorem layer_apply (x : FVec Ideal S2000x128 .f32) (Dl : Vec Ideal S1x128x128 .f32) (bl : Vec Ideal S1x128 .f32)
    (p : Fin 2000) (g : Fin 128) :
    layer x Dl bl (ix2 p g) = Cert.Spec.silu ((∑ f : Fin 128, x (ix2 p f) * Dl (ix3 (0 : Fin 1) g f)) + bl (ix2 (0 : Fin 1) g)) := by
  unfold layer
  have hl : ∀ (v : FVec Ideal S2000x128 .f32) (i : S2000x128.Idx), logistic v i = Ideal.logistic (v i) := fun _ _ => rfl
  rw [mulf_apply, hl, addf_apply, Cert.PlainDot.matmul_zero_apply plain_hidden rfl rfl, broadcastTo_1b_ab_apply, shapeCast_a_1a_apply,
    shapeCast_1a_a_apply]
  have hs : ∀ f : Fin 128, transpose S128x128 [1, 0] (shapeCast S128x128 Dl shapeCasts_S1x128x128_S128x128)
      transposes_S128x128_p1_0_S128x128 (ix2 f g) = Dl (ix3 (0 : Fin 1) g f) := fun f => by
    rw [transpose_ix2_apply, shapeCast_1ab_ab_apply]
  simp only [hs]
  rfl

/-- A layer of the kernel on a block whose row p is a given row of features, against the slab and bias row of layer l,
    is the specification's dense layer l on that row. -/
theorem layer_dense (D : Vec Ideal S3x128x128 .f32) (b : Vec Ideal S3x128 .f32) (l : Fin 3)
    (x : FVec Ideal S2000x128 .f32) (Dl : Vec Ideal S1x128x128 .f32) (bl : Vec Ideal S1x128 .f32) (p : Fin 2000)
    (row : Fin 128 → EReal) (hx : ∀ f, x (ix2 p f) = row f) (hD : ∀ g f, Dl (ix3 (0 : Fin 1) g f) = D (ix3 l g f))
    (hb : ∀ g, bl (ix2 (0 : Fin 1) g) = b (ix2 l g)) (g : Fin 128) :
    layer x Dl bl (ix2 p g) = Cert.Spec.dense D b l row g := by
  rw [layer_apply]
  unfold Cert.Spec.dense
  simp only [hx, hD, hb]

/-- The weight slabs and bias rows the three layers load, at an entry. -/
theorem slab0 (x1 : Vec Ideal S3x128x128 .f32) (g f : Fin 128) : View.ld x1 r1_1 (ix3 (0 : Fin 1) g f) = x1 (ix3 0 g f) :=
  slab_apply x1 ![0, 0, 0] inb_S3x128x128_S1x128x128_0_0_0 0 rfl rfl rfl g f
theorem slab1 (x1 : Vec Ideal S3x128x128 .f32) (g f : Fin 128) : View.ld x1 r1_3 (ix3 (0 : Fin 1) g f) = x1 (ix3 1 g f) :=
  slab_apply x1 ![1, 0, 0] inb_S3x128x128_S1x128x128_1_0_0 1 rfl rfl rfl g f
theorem slab2 (x1 : Vec Ideal S3x128x128 .f32) (g f : Fin 128) : View.ld x1 r1_5 (ix3 (0 : Fin 1) g f) = x1 (ix3 2 g f) :=
  slab_apply x1 ![2, 0, 0] inb_S3x128x128_S1x128x128_2_0_0 2 rfl rfl rfl g f
theorem bias0 (x2 : Vec Ideal S3x128 .f32) (g : Fin 128) : View.ld x2 r1_2 (ix2 (0 : Fin 1) g) = x2 (ix2 0 g) :=
  biasrow_apply x2 ![0, 0] inb_S3x128_S1x128_0_0 0 rfl rfl g
theorem bias1 (x2 : Vec Ideal S3x128 .f32) (g : Fin 128) : View.ld x2 r1_4 (ix2 (0 : Fin 1) g) = x2 (ix2 1 g) :=
  biasrow_apply x2 ![1, 0] inb_S3x128_S1x128_1_0 1 rfl rfl g
theorem bias2 (x2 : Vec Ideal S3x128 .f32) (g : Fin 128) : View.ld x2 r1_6 (ix2 (0 : Fin 1) g) = x2 (ix2 2 g) :=
  biasrow_apply x2 ![2, 0] inb_S3x128_S1x128_2_0 2 rfl rfl g

/-- The three layers on the block, at entry (p, f): the specification's three dense layers on row p. -/
theorem layers_dense (x0 : Vec Ideal S2000x128 .f32) (x1 : Vec Ideal S3x128x128 .f32) (x2 : Vec Ideal S3x128 .f32)
    (p : Fin 2000) (f : Fin 128) :
    layer (layer (layer x0 (View.ld x1 r1_1) (View.ld x2 r1_2)) (View.ld x1 r1_3) (View.ld x2 r1_4)) (View.ld x1 r1_5)
        (View.ld x2 r1_6) (ix2 p f)
      = Cert.Spec.dense x1 x2 2 (Cert.Spec.dense x1 x2 1 (Cert.Spec.dense x1 x2 0 (fun f => x0 (ix2 p f)))) f := by
  have h0 : ∀ f, layer x0 (View.ld x1 r1_1) (View.ld x2 r1_2) (ix2 p f) = Cert.Spec.dense x1 x2 0 (fun f => x0 (ix2 p f)) f :=
    fun f => layer_dense x1 x2 0 _ _ _ p _ (fun _ => rfl) (slab0 x1) (bias0 x2) f
  have h1 : ∀ f, layer (layer x0 (View.ld x1 r1_1) (View.ld x2 r1_2)) (View.ld x1 r1_3) (View.ld x2 r1_4) (ix2 p f)
      = Cert.Spec.dense x1 x2 1 (Cert.Spec.dense x1 x2 0 (fun f => x0 (ix2 p f))) f :=
    fun f => layer_dense x1 x2 1 _ _ _ p _ h0 (slab1 x1) (bias1 x2) f
  exact layer_dense x1 x2 2 _ _ _ p _ h1 (slab2 x1) (bias2 x2) f

theorem block_value (x0 : Vec Ideal S2000x128 .f32) (x1 : Vec Ideal S3x128x128 .f32) (x2 : Vec Ideal S3x128 .f32) (x3 : Vec Ideal S12x128 .f32) (p : Fin 2000) (o : Fin 12) :
    out1_4 (F := Ideal) x0 x1 x2 x3 (ix2 p o) = Cert.Spec.rowOut x1 x2 x3 (fun f => x0 (ix2 p f)) o := by
  have hz : (![0, 0] : Fin 2 → Nat) = fun _ => 0 := funext fun a => by fin_cases a <;> rfl
  unfold out1_4
  rw [View.canon_unit_zero hz, View.ld_unit_zero (S := S2000x128) hz, View.ld_unit_zero (S := S12x128) hz]
  unfold k1_pay1
  rw [Cert.PlainDot.matmul_zero_apply plain_proj rfl rfl, pay2_eq_layers, shapeCast_self]
  unfold Cert.Spec.rowOut
  refine Finset.sum_congr rfl fun f _ => ?_
  rw [layers_dense]
  unfold k1_pay3
  rw [transpose_ix2_apply]

end Cert.KernelIdeal.Region1

end
-- ==== Proof.Region1Array.lean ====
import proofs.«112896_j31791347925878_1_alg».proof.Proof.Gen.KernelIdeal.Frame
import proofs.«112896_j31791347925878_1_alg».proof.Proof.Spec
import proofs.«112896_j31791347925878_1_alg».proof.Proof.Region1Block
import Idealize.ShloMosaic.Lib.Pipeline.Value
set_option maxRecDepth 16384

noncomputable section

open Idealize.ShloMosaic Idealize.ShloMosaic.TcCoe Idealize.SL.Sem Idealize.ShloMosaic.ValueIdx

namespace Cert.KernelIdeal.Region1
open Cert.KernelIdeal Cert.KernelIdeal.Gen

/-- The five index maps, decided over the 10 grid points: at point t the atoms' window and the output's sit at block
    row t and block column 0; the dense weights, the biases and the projection are whole (block 0 on every axis) at
    every point. -/
theorem idx_facts : ∀ t : Fin cfg1.N, win1_0.index t (0 : Fin 2) = t.val
    ∧ win1_0.index t (1 : Fin 2) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- One entry of an output block, from the block's inputs read off the arrays: when row p of the atoms' block is row n
    of the array and the three parameter blocks are the parameter arrays, the block's entry (p, o) is entry (n, o) of
    the dense stack over all atoms. -/
theorem point_value (D : Cert.Spec.Arr3 3 128 128) (b : Cert.Spec.Arr2 3 128) (P : Cert.Spec.Arr2 12 128) (atom : Cert.Spec.Arr2 20000 128)
    (x0 : Vec Ideal S2000x128 .f32) (x1 : Vec Ideal S3x128x128 .f32) (x2 : Vec Ideal S3x128 .f32) (x3 : Vec Ideal S12x128 .f32)
    (p : Fin 2000) (o : Fin 12) (n : Fin 20000)
    (h0 : ∀ f : Fin 128, x0 (ix2 p f) = atom (ix2 n f))
    (h1 : x1 = D) (h2 : x2 = b) (h3 : x3 = P) :
    out1_4 (F := Ideal) x0 x1 x2 x3 (ix2 p o) = Cert.Spec.mlp D b P atom (ix2 n o) := by
  rw [block_value, Cert.Spec.mlp_ix2]
  subst h1 h2 h3
  exact congrArg (fun x => Cert.Spec.rowOut x1 x2 x3 x o) (funext h0)

/-- WHAT POINT t WRITES BACK is block t of the dense stack over the arrays as the region finds them: rows
    2000 t … 2000 t + 1999, all 12 columns. -/
theorem flushed_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (Cert.Spec.mlp (V c main_arg4) (V c main_arg5) (V c main_arg6) (V c main_v6)) := by
  show (cfg1.win 4).cut (grid1.coords t) ((dat1 V c).after 4 t) = _
  rw [after1_4]
  obtain ⟨e0, e1, e2, e3, e4, e5, e6, e7, e8, e9, e10⟩ := idx_facts t
  have ht : t.val < 10 := t.isLt
  refine funext fun (j : S2000x12.Idx) => ?_
  have hp : (j 0).val < 2000 := (j 0).isLt
  have hq : (j 1).val < 12 := (j 1).isLt
  -- the entry's place in the block, and the row of the array it is written to
  have hj : j = ix2 (⟨(j 0).val, hp⟩ : Fin 2000) (⟨(j 1).val, hq⟩ : Fin 12) := eq_ix2 j
  have hemb : ((cfg1.win 4).blk t).view.emb j
      = ix2 (⟨t.val * 2000 + (j 0).val, by omega⟩ : Fin 20000) (⟨(j 1).val, hq⟩ : Fin 12) := by
    funext a; apply Fin.ext
    match a with
    | ⟨0, _⟩ => show win1_4.index t (0 : Fin 2) * 2000 + 1 * (j 0).val = t.val * 2000 + (j 0).val; omega
    | ⟨1, _⟩ => show win1_4.index t (1 : Fin 2) * 12 + 1 * (j 1).val = (j 1).val; omega
  show out1_4 (iblk1 V c 0 t) (iblk1 V c 1 t) (iblk1 V c 2 t) (iblk1 V c 3 t) j
    = Cert.Spec.mlp (V c main_arg4) (V c main_arg5) (V c main_arg6) (V c main_v6) (((cfg1.win 4).blk t).view.emb j)
  refine (congrArg (out1_4 (iblk1 V c 0 t) (iblk1 V c 1 t) (iblk1 V c 2 t) (iblk1 V c 3 t)) hj).trans ?_
  refine (point_value (V c main_arg4) (V c main_arg5) (V c main_arg6) (V c main_v6) _ _ _ _ _ _
    (⟨t.val * 2000 + (j 0).val, by omega⟩ : Fin 20000) ?_ ?_ ?_ ?_).trans (congrArg _ hemb.symm)
  · -- row (j 0) of the atoms' block is row 2000 t + (j 0) of the array
    intro f
    show V c main_v6 (((cfg1.win 0).blk t).view.emb (ix2 (⟨(j 0).val, hp⟩ : Fin 2000) f)) = _
    refine congrArg (V c main_v6) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 128 + 1 * f.val = f.val; omega
  · -- the dense weights' block is the whole array
    refine funext fun (x : S3x128x128.Idx) => ?_
    show V c main_arg4 (((cfg1.win 1).blk t).view.emb x) = _
    refine congrArg (V c main_arg4) (funext fun a => Fin.ext ?_)
    match a with
    | ⟨0, _⟩ => show win1_1.index t (0 : Fin 3) * 3 + 1 * (x 0).val = (x 0).val; omega
    | ⟨1, _⟩ => show win1_1.index t (1 : Fin 3) * 128 + 1 * (x 1).val = (x 1).val; omega
    | ⟨2, _⟩ => show win1_1.index t (2 : Fin 3) * 128 + 1 * (x 2).val = (x 2).val; omega
  · -- the biases' block is the whole array
    refine funext fun (x : S3x128.Idx) => ?_
    show V c main_arg5 (((cfg1.win 2).blk t).view.emb x) = _
    refine congrArg (V c main_arg5) (funext fun a => Fin.ext ?_)
    match a with
    | ⟨0, _⟩ => show win1_2.index t (0 : Fin 2) * 3 + 1 * (x 0).val = (x 0).val; omega
    | ⟨1, _⟩ => show win1_2.index t (1 : Fin 2) * 128 + 1 * (x 1).val = (x 1).val; omega
  · -- the projection's block is the whole array
    refine funext fun (x : S12x128.Idx) => ?_
    show V c main_arg6 (((cfg1.win 3).blk t).view.emb x) = _
    refine congrArg (V c main_arg6) (funext fun a => Fin.ext ?_)
    match a with
    | ⟨0, _⟩ => show win1_3.index t (0 : Fin 2) * 12 + 1 * (x 0).val = (x 0).val; omega
    | ⟨1, _⟩ => show win1_3.index t (1 : Fin 2) * 128 + 1 * (x 1).val = (x 1).val; omega

/-- An index of the output array is in point t's block iff each coordinate is in the block's range on its axis. -/
theorem mem_blk (t : Fin cfg1.N) (i : S20000x12.Idx) :
    i ∈ ((cfg1.win 4).blk t).view.set ↔ ∀ a : Fin 2, win1_4.index t a * S2000x12.size a ≤ (i a).val ∧ (i a).val < win1_4.index t a * S2000x12.size a + S2000x12.size a := by
  show i ∈ ((View.whole main_v7).slice (win1_4.rect t)).set ↔ _
  rw [View.set_slice_whole, Rect.mem_set_unit]
  exact Iff.rfl

/-- EVERY index of the output array is in some point's block: row r is written by point r / 2000, and the 10 blocks
    of 2000 rows fill the 20000 rows; every point writes back. -/
theorem cover (i : S20000x12.Idx) :
    ∃ t : Fin cfg1.N, (cfg1.win 4).flush t = true ∧ i ∈ ((cfg1.win 4).blk t).view.set := by
  have hi0 : (i 0).val < 20000 := (i 0).isLt
  have hi1 : (i 1).val < 12 := (i 1).isLt
  have hN : (i 0).val / 2000 < grid1.N := by rw [N_1]; omega
  obtain ⟨-, -, -, -, -, -, -, -, -, e9, e10⟩ := idx_facts ⟨(i 0).val / 2000, hN⟩
  have q0 : win1_4.index ⟨(i 0).val / 2000, hN⟩ (0 : Fin 2) = (i 0).val / 2000 := e9
  refine ⟨⟨(i 0).val / 2000, hN⟩, flush1_4 _, ?_⟩
  rw [mem_blk]
  intro a
  match a with
  | ⟨0, _⟩ => show win1_4.index ⟨(i 0).val / 2000, hN⟩ (0 : Fin 2) * 2000 ≤ (i 0).val ∧ (i 0).val < win1_4.index ⟨(i 0).val / 2000, hN⟩ (0 : Fin 2) * 2000 + 2000; omega
  | ⟨1, _⟩ => show win1_4.index ⟨(i 0).val / 2000, hN⟩ (1 : Fin 2) * 12 ≤ (i 1).val ∧ (i 1).val < win1_4.index ⟨(i 0).val / 2000, hN⟩ (1 : Fin 2) * 12 + 12; omega

/-- THE OUTPUT ARRAY after the region's run is the dense stack over the arrays as the region finds them. -/
theorem array_value (V : (c : Dev nD) → (b : Ref sig .tc) → Buf (Elt Ideal) ((c : Thread nD τ).loc b)) (c : Dev nD) :
    (dat1 (F := Ideal) V c).arrAt 4 cfg1.N = Cert.Spec.mlp (V c main_arg4) (V c main_arg5) (V c main_arg6) (V c main_v6) :=
  (dat1 (F := Ideal) V c).arrAt_eq_of_cover 4 _ (fun t _ => flushed_eq V c t) cover

end Cert.KernelIdeal.Region1

end
-- ==== Proof.RefValue.lean ====
import proofs.«112896_j31791347925878_1_alg».proof.Proof.Gen.ReferenceIdeal.Read
import proofs.«112896_j31791347925878_1_alg».proof.Proof.Spec
import Idealize.ShloMosaic.Lib.IdealHost

noncomputable section

open Idealize.ShloMosaic Idealize.ShloMosaic.TcCoe Idealize.SL.Sem Idealize.ShloMosaic.ValueIdx

namespace Cert.ReferenceIdeal.RefValue
open Cert.ReferenceIdeal Cert.ReferenceIdeal.Read

/-! ## The message: contraction indices -/

/-- The contraction of edge row e against weight row f reads the radial-basis entry (e, r) … -/
theorem lidx_v0 (e : Fin 640000) (f : Fin 128) (k : Fin 16) : lidx_main_v0 (ix2 e f) k = ix2 e k :=
  funext fun a => Fin.ext (by match a with | ⟨0, _⟩ => rfl | ⟨1, _⟩ => rfl)

/-- … and the weight entry (f, r). -/
theorem ridx_v0 (e : Fin 640000) (f : Fin 128) (k : Fin 16) : ridx_main_v0 (ix2 e f) k = ix2 f k :=
  funext fun a => Fin.ext (by match a with | ⟨0, _⟩ => rfl | ⟨1, _⟩ => rfl)

theorem message_value (x0 : (⟨S640000x128, .f32⟩ : BufTy).Contents (Elt Ideal)) (x1 : (⟨S640000x16, .f32⟩ : BufTy).Contents (Elt Ideal)) (x3 : (⟨S128x16, .f32⟩ : BufTy).Contents (Elt Ideal)) :
    val_main_v1 (F := Ideal) x0 x1 x3 = Cert.Spec.message x1 x3 x0 := by
  funext i
  obtain ⟨e, f, rfl⟩ : ∃ (e : Fin 640000) (f : Fin 128), i = ix2 e f := ⟨i 0, i 1, eq_ix2 i⟩
  rw [val_main_v1_apply, val_main_v0_apply, Cert.Spec.message_ix2]
  simp only [lidx_v0, ridx_v0, Ideal.mulf_def]
  rfl

/-! ## SiLU in the host's operations -/

/-- y · (1 / (1 + e^(-y))), with the constant one written as its f32 pattern, is SiLU at every extended real:
    the quotient is the logistic function by definition, corners included. -/
theorem silu_host (y : Ideal .f32) :
    FloatOps.mulf y (FloatOps.hostDivf (FloatOps.ofBits .f32 0x3F800000#32)
      (FloatOps.addf (FloatOps.ofBits .f32 0x3F800000#32) (FloatOps.hostUnary .exp (FloatOps.hostNegf y)))) = Cert.Spec.silu y := by
  simp only [Ideal.ofBits_def, Ideal.ofBits_one_f32]
  rfl

/-! ## Layer slabs and bias rows: which entry of the stacked weight and bias each stage reads -/

/-- Row g, column k of the slab cut from layer 0: the slice keeps the leading coordinate, the reshape splits the flat
    position g·128 + k back into (g, k). -/
theorem slab0_idx (g k : Fin 128) : idx_main_v7 (idx_main_v8 (ix2 g k)) = ix3 (0 : Fin 3) g k :=
  funext fun a => Fin.ext (by
    have hg := g.isLt; have hk := k.isLt
    match a with
    | ⟨0, _⟩ => rfl
    | ⟨1, _⟩ => show (g.val * 128 + k.val) / 128 % 128 = g.val; omega
    | ⟨2, _⟩ => show (g.val * 128 + k.val) % 128 = k.val; omega)

theorem slab1_idx (g k : Fin 128) : idx_main_v16 (idx_main_v17 (ix2 g k)) = ix3 (1 : Fin 3) g k :=
  funext fun a => Fin.ext (by
    have hg := g.isLt; have hk := k.isLt
    match a with
    | ⟨0, _⟩ => rfl
    | ⟨1, _⟩ => show (g.val * 128 + k.val) / 128 % 128 = g.val; omega
    | ⟨2, _⟩ => show (g.val * 128 + k.val) % 128 = k.val; omega)

theorem slab2_idx (g k : Fin 128) : idx_main_v25 (idx_main_v26 (ix2 g k)) = ix3 (2 : Fin 3) g k :=
  funext fun a => Fin.ext (by
    have hg := g.isLt; have hk := k.isLt
    match a with
    | ⟨0, _⟩ => rfl
    | ⟨1, _⟩ => show (g.val * 128 + k.val) / 128 % 128 = g.val; omega
    | ⟨2, _⟩ => show (g.val * 128 + k.val) % 128 = k.val; omega)

/-- The bias broadcast over the atoms reads entry g of layer 0's bias row, whatever the atom. -/
theorem bias0_idx (n : Fin 20000) (g : Fin 128) :
    idx_main_v10 (idx_main_v11 (idx_main_v12 (idx_main_v13 (ix2 n g)))) = ix2 (0 : Fin 3) g :=
  funext fun a => Fin.ext (by
    have hg := g.isLt
    match a with
    | ⟨0, _⟩ => rfl
    | ⟨1, _⟩ => show g.val % 128 = g.val; omega)

theorem bias1_idx (n : Fin 20000) (g : Fin 128) :
    idx_main_v19 (idx_main_v20 (idx_main_v21 (idx_main_v22 (ix2 n g)))) = ix2 (1 : Fin 3) g :=
  funext fun a => Fin.ext (by
    have hg := g.isLt
    match a with
    | ⟨0, _⟩ => rfl
    | ⟨1, _⟩ => show g.val % 128 = g.val; omega)

theorem bias2_idx (n : Fin 20000) (g : Fin 128) :
    idx_main_v28 (idx_main_v29 (idx_main_v30 (idx_main_v31 (ix2 n g)))) = ix2 (2 : Fin 3) g :=
  funext fun a => Fin.ext (by
    have hg := g.isLt
    match a with
    | ⟨0, _⟩ => rfl
    | ⟨1, _⟩ => show g.val % 128 = g.val; omega)

/-! ## The three dense layers, one atom row at a time -/

section Layers

variable (x0 : (⟨S640000x128, .f32⟩ : BufTy).Contents (Elt Ideal)) (x1 : (⟨S640000x16, .f32⟩ : BufTy).Contents (Elt Ideal))
  (x2 : (⟨S2x640000, .i32⟩ : BufTy).Contents (Elt Ideal)) (x3 : (⟨S128x16, .f32⟩ : BufTy).Contents (Elt Ideal))
  (x4 : (⟨S3x128x128, .f32⟩ : BufTy).Contents (Elt Ideal)) (x5 : (⟨S3x128, .f32⟩ : BufTy).Contents (Elt Ideal))
  (x6 : (⟨S12x128, .f32⟩ : BufTy).Contents (Elt Ideal))

/-- Entry (g, k) of layer 0's slab is entry (0, g, k) of the stacked weight. -/
theorem slab0 (n : Fin 20000) (g k : Fin 128) :
    val_main_v8 (F := Ideal) x4 (ridx_main_v9 (ix2 n g) k) = x4 (ix3 0 g k) := by
  have hr : ridx_main_v9 (ix2 n g) k = ix2 g k :=
    funext fun a => Fin.ext (by match a with | ⟨0, _⟩ => rfl | ⟨1, _⟩ => rfl)
  rw [hr, val_main_v8_apply, val_main_v7_apply, slab0_idx]

theorem slab1 (n : Fin 20000) (g k : Fin 128) :
    val_main_v17 (F := Ideal) x4 (ridx_main_v18 (ix2 n g) k) = x4 (ix3 1 g k) := by
  have hr : ridx_main_v18 (ix2 n g) k = ix2 g k :=
    funext fun a => Fin.ext (by match a with | ⟨0, _⟩ => rfl | ⟨1, _⟩ => rfl)
  rw [hr, val_main_v17_apply, val_main_v16_apply, slab1_idx]

theorem slab2 (n : Fin 20000) (g k : Fin 128) :
    val_main_v26 (F := Ideal) x4 (ridx_main_v27 (ix2 n g) k) = x4 (ix3 2 g k) := by
  have hr : ridx_main_v27 (ix2 n g) k = ix2 g k :=
    funext fun a => Fin.ext (by match a with | ⟨0, _⟩ => rfl | ⟨1, _⟩ => rfl)
  rw [hr, val_main_v26_apply, val_main_v25_apply, slab2_idx]

/-- The left operand of each layer's contraction is read along atom n's own row. -/
theorem lidx_v9 (n : Fin 20000) (g k : Fin 128) : lidx_main_v9 (ix2 n g) k = ix2 n k :=
  funext fun a => Fin.ext (by match a with | ⟨0, _⟩ => rfl | ⟨1, _⟩ => rfl)

theorem lidx_v18 (n : Fin 20000) (g k : Fin 128) : lidx_main_v18 (ix2 n g) k = ix2 n k :=
  funext fun a => Fin.ext (by match a with | ⟨0, _⟩ => rfl | ⟨1, _⟩ => rfl)

theorem lidx_v27 (n : Fin 20000) (g k : Fin 128) : lidx_main_v27 (ix2 n g) k = ix2 n k :=
  funext fun a => Fin.ext (by match a with | ⟨0, _⟩ => rfl | ⟨1, _⟩ => rfl)

theorem lidx_v34 (n : Fin 20000) (o : Fin 12) (k : Fin 128) : lidx_main_v34 (ix2 n o) k = ix2 n k :=
  funext fun a => Fin.ext (by match a with | ⟨0, _⟩ => rfl | ⟨1, _⟩ => rfl)

theorem ridx_v34 (n : Fin 20000) (o : Fin 12) (k : Fin 128) : ridx_main_v34 (ix2 n o) k = ix2 o k :=
  funext fun a => Fin.ext (by match a with | ⟨0, _⟩ => rfl | ⟨1, _⟩ => rfl)

/-- Layer 0 before the activation: atom n's scattered row against slab row g, plus bias entry g. -/
theorem pre0 (n : Fin 20000) (g : Fin 128) :
    val_main_v14 (F := Ideal) x0 x1 x2 x3 x4 x5 (ix2 n g)
      = (∑ f : Fin 128, val_main_v6 (F := Ideal) x0 x1 x2 x3 (ix2 n f) * x4 (ix3 0 g f)) + x5 (ix2 0 g) := by
  rw [val_main_v14_apply, val_main_v9_apply, val_main_v13_apply, val_main_v12_apply, val_main_v11_apply,
    val_main_v10_apply, bias0_idx]
  simp only [lidx_v9, slab0, Ideal.addf_def]

/-- Layer 0 on atom n's row is the specification's dense layer 0 of the scattered row. -/
theorem layer0 (n : Fin 20000) (g : Fin 128) :
    val_main_v15 (F := Ideal) x0 x1 x2 x3 x4 x5 (ix2 n g)
      = Cert.Spec.dense x4 x5 0 (fun f => val_main_v6 (F := Ideal) x0 x1 x2 x3 (ix2 n f)) g := by
  rw [val_main_v15_apply, val_main_call0_v5_apply, val_main_call0_v4_apply, val_main_call0_cst_0_apply,
    val_main_call0_v3_apply, val_main_call0_v2_apply, val_main_call0_cst_apply, val_main_call0_v1_apply,
    val_main_call0_v0_apply]
  exact (silu_host _).trans (congrArg Cert.Spec.silu (pre0 x0 x1 x2 x3 x4 x5 n g))

/-- Layer 1 before the activation, over layer 0's output row. -/
theorem pre1 (n : Fin 20000) (g : Fin 128) :
    val_main_v23 (F := Ideal) x0 x1 x2 x3 x4 x5 (ix2 n g)
      = (∑ f : Fin 128, Cert.Spec.dense x4 x5 0 (fun f => val_main_v6 (F := Ideal) x0 x1 x2 x3 (ix2 n f)) f * x4 (ix3 1 g f))
        + x5 (ix2 1 g) := by
  rw [val_main_v23_apply, val_main_v18_apply, val_main_v22_apply, val_main_v21_apply, val_main_v20_apply,
    val_main_v19_apply, bias1_idx]
  simp only [lidx_v18, layer0, slab1, Ideal.addf_def]

theorem layer1 (n : Fin 20000) (g : Fin 128) :
    val_main_v24 (F := Ideal) x0 x1 x2 x3 x4 x5 (ix2 n g)
      = Cert.Spec.dense x4 x5 1 (Cert.Spec.dense x4 x5 0 (fun f => val_main_v6 (F := Ideal) x0 x1 x2 x3 (ix2 n f))) g := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply]
  exact (silu_host _).trans (congrArg Cert.Spec.silu (pre1 x0 x1 x2 x3 x4 x5 n g))

/-- Layer 2 before the activation, over layer 1's output row. -/
theorem pre2 (n : Fin 20000) (g : Fin 128) :
    val_main_v32 (F := Ideal) x0 x1 x2 x3 x4 x5 (ix2 n g)
      = (∑ f : Fin 128, Cert.Spec.dense x4 x5 1 (Cert.Spec.dense x4 x5 0
            (fun f => val_main_v6 (F := Ideal) x0 x1 x2 x3 (ix2 n f))) f * x4 (ix3 2 g f))
        + x5 (ix2 2 g) := by
  rw [val_main_v32_apply, val_main_v27_apply, val_main_v31_apply, val_main_v30_apply, val_main_v29_apply,
    val_main_v28_apply, bias2_idx]
  simp only [lidx_v27, layer1, slab2, Ideal.addf_def]

theorem layer2 (n : Fin 20000) (g : Fin 128) :
    val_main_v33 (F := Ideal) x0 x1 x2 x3 x4 x5 (ix2 n g)
      = Cert.Spec.dense x4 x5 2 (Cert.Spec.dense x4 x5 1 (Cert.Spec.dense x4 x5 0
          (fun f => val_main_v6 (F := Ideal) x0 x1 x2 x3 (ix2 n f)))) g := by
  rw [val_main_v33_apply, val_main_call2_v5_apply, val_main_call2_v4_apply, val_main_call2_cst_0_apply,
    val_main_call2_v3_apply, val_main_call2_v2_apply, val_main_call2_cst_apply, val_main_call2_v1_apply,
    val_main_call2_v0_apply]
  exact (silu_host _).trans (congrArg Cert.Spec.silu (pre2 x0 x1 x2 x3 x4 x5 n g))

end Layers

/-- The projection of layer 2's output row onto the 12 outputs is the specification's row function. -/
theorem result_value (x0 : (⟨S640000x128, .f32⟩ : BufTy).Contents (Elt Ideal)) (x1 : (⟨S640000x16, .f32⟩ : BufTy).Contents (Elt Ideal)) (x2 : (⟨S2x640000, .i32⟩ : BufTy).Contents (Elt Ideal)) (x3 : (⟨S128x16, .f32⟩ : BufTy).Contents (Elt Ideal)) (x4 : (⟨S3x128x128, .f32⟩ : BufTy).Contents (Elt Ideal)) (x5 : (⟨S3x128, .f32⟩ : BufTy).Contents (Elt Ideal)) (x6 : (⟨S12x128, .f32⟩ : BufTy).Contents (Elt Ideal)) :
    val_main_v34 (F := Ideal) x0 x1 x2 x3 x4 x5 x6 = Cert.Spec.mlp x4 x5 x6 (val_main_v6 (F := Ideal) x0 x1 x2 x3) := by
  funext i
  obtain ⟨n, o, rfl⟩ : ∃ (n : Fin 20000) (o : Fin 12), i = ix2 n o := ⟨i 0, i 1, eq_ix2 i⟩
  rw [val_main_v34_apply, Cert.Spec.mlp_ix2]
  simp only [lidx_v34, ridx_v34, layer2]
  rfl

end Cert.ReferenceIdeal.RefValue

end
-- ==== Proof.Bridge.lean ====
/-
  The two programs' results are one function of the seven argument arrays.

  The kernel's result array is its second region's output after the ten write-backs: the dense stack of the atoms
  the host summed from the first region's messages. The first region's weight window holds the launched weight
  transposed, and reading the weight through its transpose is reading it at the swapped entry, so the messages are
  the specification's. The reference's result is its last stage: the dense stack of the same scatter-add of the same
  messages. The scatter-add chain itself is never opened.
-/
import proofs.«112896_j31791347925878_1_alg».proof.Proof.KernelRun
import proofs.«112896_j31791347925878_1_alg».proof.Proof.HostStretch
import proofs.«112896_j31791347925878_1_alg».proof.Proof.Region0Array
import proofs.«112896_j31791347925878_1_alg».proof.Proof.Region1Array
import proofs.«112896_j31791347925878_1_alg».proof.Proof.RefValue
import Idealize.ShloMosaic.Lib.ValueLayout

set_option maxRecDepth 16384

noncomputable section

namespace Cert.Bridge

open Idealize.ShloMosaic Idealize.ShloMosaic.TcCoe Idealize.SL.Sem Idealize.ShloMosaic.ValueIdx

/-- The result as one function of the argument arrays: incoming features, radial basis, edge index, radial weight,
    dense weights, dense biases, projection. -/
def result (a0 : Cert.Spec.Arr2 640000 128) (a1 : Cert.Spec.Arr2 640000 16)
    (a2 : (⟨Cert.KernelIdeal.S2x640000, .i32⟩ : BufTy).Contents (Elt Ideal)) (a3 : Cert.Spec.Arr2 128 16)
    (a4 : Cert.Spec.Arr3 3 128 128) (a5 : Cert.Spec.Arr2 3 128) (a6 : Cert.Spec.Arr2 12 128) : Cert.Spec.Arr2 20000 12 :=
  Cert.Spec.mlp a4 a5 a6 (Cert.KernelIdeal.Stretch.atomsOf (F := Ideal) a2 (Cert.Spec.message a1 a3 a0))

section Kernel

open Cert.KernelIdeal Cert.KernelIdeal.Gen

variable (m : (ℓ : Loc nD τ sig) → Buf (Elt Ideal) ℓ) (ρ : Dev nD → PrngReg)

/-- The first region's messages are the specification's: its weight window holds the launched weight transposed. -/
theorem kernel_messages (c : Dev nD) :
    (dat0 (F := Ideal) (V1 m ρ) c).arrAt 3 cfg0.N
      = Cert.Spec.message (m ((c : Thread nD τ).loc main_arg1)) (m ((c : Thread nD τ).loc main_arg3)) (m ((c : Thread nD τ).loc main_arg0)) := by
  rw [Cert.KernelIdeal.Region0.array_value (V1 m ρ) c, Cert.KernelIdeal.Stretch.entry0_rbf, Cert.KernelIdeal.Stretch.entry0_wT,
    Cert.KernelIdeal.Stretch.entry0_mji]
  exact Cert.Spec.messageT_eq _ _ _ _ (fun r f => transpose_ix2_apply _ _ r f)

/-- The kernel's result array after the run. -/
theorem kernel_value (c : Dev nD) :
    W4 m ρ c (Proc.devRef .tc main_v7)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 4).trans ?_
  rw [Cert.KernelIdeal.Region1.array_value (V3 m ρ) c, Cert.KernelIdeal.Stretch.entry1_D, Cert.KernelIdeal.Stretch.entry1_b,
    Cert.KernelIdeal.Stretch.entry1_P, Cert.KernelIdeal.Stretch.entry1_atoms, kernel_messages m ρ c]
  rfl

end Kernel

section Reference

open Cert.ReferenceIdeal Cert.ReferenceIdeal.Read

/-- The reference's atoms are the same chain of the same messages. -/
theorem reference_atoms (x0 : (⟨S640000x128, .f32⟩ : BufTy).Contents (Elt Ideal)) (x1 : (⟨S640000x16, .f32⟩ : BufTy).Contents (Elt Ideal))
    (x2 : (⟨S2x640000, .i32⟩ : BufTy).Contents (Elt Ideal)) (x3 : (⟨S128x16, .f32⟩ : BufTy).Contents (Elt Ideal)) :
    val_main_v6 (F := Ideal) x0 x1 x2 x3 = Cert.KernelIdeal.Stretch.atomsOf (F := Ideal) x2 (Cert.Spec.message x1 x3 x0) := by
  rw [← Cert.ReferenceIdeal.RefValue.message_value x0 x1 x3]
  rfl

/-- The reference's result. -/
theorem reference_value (m' : (ℓ : Loc nD τ sig) → Buf (Elt Ideal) ℓ) (c : Dev nD) :
    Cert.ReferenceIdeal.Value.res_main_v34 m' c
      = result (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5))
          (m' ((c.tc : Thread nD τ).loc main_arg6)) := by
  rw [val_main_v34_eq, Cert.ReferenceIdeal.RefValue.result_value, reference_atoms]
  rfl

end Reference

end Cert.Bridge

end
-- ==== Proof.lean ====
/-
  A message-passing block of a graph network, as a kernel of two fused stages around a host scatter-add, against its
  plain reference; both are read on the extended reals, where every float operation is the exact one.

  Stage one (80 grid points of 8000 edges): msg[e, f] = (∑ r < 16, rbf[e, r] · W[f, r]) · m[e, f]. The kernel takes the
  product with the weight transposed on the host, the reference contracts the weight's second axis directly: the
  same sum. The host then adds each edge's message onto its receiving atom (row 1 of the edge index); both programs
  apply the same scatter-add chain to the same messages, and it is carried as one function that is never opened.
  Stage two (10 grid points of 2000 atoms): three dense layers x ↦ silu (x · Dₗᵀ + bₗ) and a projection by Pᵀ, row by
  row. The kernel's silu is y · logistic y; the reference's is y · (1 / (1 + e^(-y))) in host operations; on every
  extended real the two are one function, so no finiteness of the inputs is used anywhere.

  The frames of the two kernel programs are the generated ones; the reference's frame is its generated run with the
  result dropped; the idealization applied no rewrite, so `preserves` asks nothing. For `algebraic` the kernel's run
  is taken with its result array named (the generated launch, called once more), the array is computed region by
  region (Region0Block / Region0Array, Region1Block / Region1Array over HostStretch), the reference's last stage is
  read through its generated stages (RefValue), and Bridge states both as `Bridge.result` of the argument arrays.
-/
import proofs.«112896_j31791347925878_1_alg».proof.Defs
import proofs.«112896_j31791347925878_1_alg».proof.Proof.Gen.Kernel
import proofs.«112896_j31791347925878_1_alg».proof.Proof.Gen.Kernel.Skeleton
import proofs.«112896_j31791347925878_1_alg».proof.Proof.Gen.Kernel.Launch
import proofs.«112896_j31791347925878_1_alg».proof.Proof.Gen.Kernel.Points
import proofs.«112896_j31791347925878_1_alg».proof.Proof.Gen.Kernel.Frame
import proofs.«112896_j31791347925878_1_alg».proof.Proof.Gen.KernelIdeal
import proofs.«112896_j31791347925878_1_alg».proof.Proof.Gen.KernelIdeal.Skeleton
import proofs.«112896_j31791347925878_1_alg».proof.Proof.Gen.KernelIdeal.Launch
import proofs.«112896_j31791347925878_1_alg».proof.Proof.Gen.KernelIdeal.Points
import proofs.«112896_j31791347925878_1_alg».proof.Proof.Gen.KernelIdeal.Frame
import proofs.«112896_j31791347925878_1_alg».proof.Proof.Gen.ReferenceIdeal
import proofs.«112896_j31791347925878_1_alg».proof.Proof.Gen.Pre_finite_inputs
import proofs.«112896_j31791347925878_1_alg».proof.Proof.Gen.ReferenceIdeal.Run
import proofs.«112896_j31791347925878_1_alg».proof.Proof.Gen.ReferenceIdeal.Read
import proofs.«112896_j31791347925878_1_alg».proof.Proof.Bridge
import Idealize.ShloMosaic.Adequacy
import Idealize.ShloMosaic.Init

noncomputable section

namespace Cert.Proof

open Idealize.ShloMosaic Idealize.SL.Sem Cert.Kernel

/-- The word-level kernel terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments both programs end with the result array at the same function of
    those arguments. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Bridge.kernel_value m ρ c), (h c).2⟩) (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    rw [Cert.Bridge.reference_value m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
